-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S4096x512, .f32⟩
  | .local _ .vmem, ⟨3, _⟩ => ⟨S4096x512, .f32⟩
  | .local _ .vmem, ⟨4, _⟩ => ⟨S512x512, .f32⟩
  | .local _ .vmem, ⟨5, _⟩ => ⟨S512x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S4096x512_S4096x512_0_0 : ∀ a, (![0, 0] : Fin 2 → Nat) a + S4096x512.size a ≤ S4096x512.size a
  h_S4096x512 : 0 < S4096x512.numel
  inb_S512x512_S512x512_0_0 : ∀ a, (![0, 0] : Fin 2 → Nat) a + S512x512.size a ≤ S512x512.size a
  h_S512x512 : 0 < S512x512.numel
  dot_S512x4096_S4096x512_S512x512_1_0_0_1_n_n_wf : DotDims.WF S512x4096 S4096x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .f32 = 32 ∨ (Rect.block (s := S4096x4096) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x4096.size a
  hwx0_2 : ∀ i : grid0.Coords, EltTy.bits .f32 = 32 ∨ (Rect.block (s := S8192x4096) S512x512.size (cc0_transform_2 i) (hinb0_2 i)).WholeWords (EltTy.packing .f32)

variable [Facts₀]

def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.ProductSpec.lean ====
/-
  The mathematics both programs compute: the product of a matrix `x` of 8192 rows and 4096 columns with a square
  matrix `h` of 4096 rows and columns, over the extended reals. Entry `(r, c)` of the product is the sum over the
  4096 inner positions `k` of `x (r, k) · h (k, c)`. The order in which a program adds the 4096 terms does not
  matter here (addition of extended reals is commutative and associative), and no term is moved across a sum, so
  nothing below asks the entries to be finite.
-/
import Idealize.ShloMosaic.PureOps.Ideal
import Idealize.ShloMosaic.Lib.ValueIdx

noncomputable section

open scoped BigOperators
open Idealize.ShloMosaic Idealize.ShloMosaic.ValueIdx

namespace Cert.MatProduct

/-- The shape of `x` and of the product: 8192 rows, 4096 columns. -/
abbrev Tall : Shape := ⟨2, ![8192, 4096]⟩
/-- The shape of `h`: 4096 rows, 4096 columns. -/
abbrev Square : Shape := ⟨2, ![4096, 4096]⟩

/-- The product `x · h`, entry by entry: at `i = (r, c)` the sum over `k` of `x (r, k) · h (k, c)`. -/
def product (x : FVec Ideal Tall .f32) (h : FVec Ideal Square .f32) : FVec Ideal Tall .f32 :=
  fun i => ∑ k : Fin 4096, x (ix2 (i 0) k) * h (ix2 k (i 1))

/-- The product at explicit coordinates. -/
theorem product_apply (x : FVec Ideal Tall .f32) (h : FVec Ideal Square .f32) (r : Fin 8192) (c : Fin 4096) :
    product x h (ix2 r c) = ∑ k : Fin 4096, x (ix2 r k) * h (ix2 k c) := rfl

end Cert.MatProduct

end
-- ==== Proof.ReferenceProduct.lean ====
/-
  The reference is the product of the specification.

  The reference program is one host contraction of `x`'s columns with `h`'s rows. Read at an entry `i = (r, c)` it is
  the sum over the 4096 inner positions `k` of `x` at `(r, k)` times `h` at `(k, c)`: the two index functions the
  generated reading of the contraction uses are exactly those coordinate pairs.
-/
import proofs.«156654_j4904852652181_1_alg».proof.Proof.Gen.ReferenceIdeal.Read
import proofs.«156654_j4904852652181_1_alg».proof.Proof.ProductSpec

noncomputable section

open scoped BigOperators
open Idealize.ShloMosaic Idealize.ShloMosaic.ValueIdx

namespace Cert.ReferenceIdeal.RefValue

open Cert.ReferenceIdeal Cert.ReferenceIdeal.Gen Cert.ReferenceIdeal.Read

/-- The left operand is read at row `r` of the entry and column `k`. -/
theorem left_index (i : S8192x4096.Idx) (k : Fin 4096) : lidx_main_v0 i k = ix2 (i 0) k :=
  funext fun a => Fin.ext (by match a with | ⟨0, _⟩ => rfl | ⟨1, _⟩ => rfl)

/-- The right operand is read at row `k` and column `c` of the entry. -/
theorem right_index (i : S8192x4096.Idx) (k : Fin 4096) : ridx_main_v0 i k = ix2 k (i 1) :=
  funext fun a => Fin.ext (by match a with | ⟨0, _⟩ => rfl | ⟨1, _⟩ => rfl)

/-- The term the reference's run ends at is the product `x · h`, entry by entry. -/
theorem reference_is_product (x : FVec Ideal Cert.MatProduct.Tall .f32) (h : FVec Ideal Cert.MatProduct.Square .f32) :
    Host.dotGeneral (F := Ideal) dot_S8192x4096_S4096x4096_S8192x4096_1_0_0_1_n_n none x h = Cert.MatProduct.product x h := by
  rw [val_main_v0_eq]
  funext i
  rw [val_main_v0_apply]
  simp only [left_index, right_index]
  rfl

end Cert.ReferenceIdeal.RefValue

end
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.BlockProduct.lean ====
/-
  What the kernel body computes from the two blocks it loads, read at one entry.

  The body loads a block `a` of 512 rows and 4096 columns (512 whole rows of `x`) and a block `b` of 4096 rows and
  512 columns (512 whole columns of `h`), narrows both to a shorter float format — at the ideal values a change of
  format is the identity —, and multiplies them on the matrix unit into a zero accumulator. So entry `(p, o)` of the
  512 × 512 result is `∑ k, a (p, k) · b (k, o)` over the 4096 inner positions: the whole inner axis is inside the
  block, and no partial sum is carried between grid points.
-/
import proofs.«156654_j4904852652181_1_alg».proof.Proof.Gen.KernelIdeal.Skeleton
import proofs.«156654_j4904852652181_1_alg».proof.Proof.LibPlainMatmul
import Idealize.ShloMosaic.PureOps.Ideal.Laws
import Idealize.ShloMosaic.Lib.ValueIdx

noncomputable section

open scoped BigOperators
open Idealize.ShloMosaic Idealize.ShloMosaic.ValueIdx

namespace Cert.KernelIdeal.BlockValue

open Cert.KernelIdeal Cert.KernelIdeal.Gen

/-! ## The matrix unit's dimension record: which operand coordinate each result and inner coordinate feeds -/

/-- The left operand's row is the result's row. -/
theorem lhs_row (i : S512x512.Idx) (q : dot_S512x4096_S4096x512_S512x512_1_0_0_1_n_n.contr.Idx) :
    (dot_S512x4096_S4096x512_S512x512_1_0_0_1_n_n.lhsIdx i q 0).val = (i 0).val := by
  unfold DotDims.lhsIdx
  rw [dif_neg (show ¬(0 : Fin S512x4096.rank) ∈ dot_S512x4096_S4096x512_S512x512_1_0_0_1_n_n.lhsBatch by decide),
    dif_pos (show (0 : Fin S512x4096.rank) ∈ dot_S512x4096_S4096x512_S512x512_1_0_0_1_n_n.lhsNonContracting by decide)]
  rfl

/-- The left operand's column is the inner position. -/
theorem lhs_col (i : S512x512.Idx) (q : dot_S512x4096_S4096x512_S512x512_1_0_0_1_n_n.contr.Idx) :
    (dot_S512x4096_S4096x512_S512x512_1_0_0_1_n_n.lhsIdx i q 1).val = (q ⟨0, by decide⟩).val :=
  dot_S512x4096_S4096x512_S512x512_1_0_0_1_n_n.lhsIdx_val_of_single rfl i q

/-- The right operand's row is the inner position. -/
theorem rhs_row (i : S512x512.Idx) (q : dot_S512x4096_S4096x512_S512x512_1_0_0_1_n_n.contr.Idx) :
    (dot_S512x4096_S4096x512_S512x512_1_0_0_1_n_n.rhsIdx i q 0).val = (q ⟨0, by decide⟩).val :=
  dot_S512x4096_S4096x512_S512x512_1_0_0_1_n_n.rhsIdx_val_of_single rfl i q

/-- The right operand's column is the result's column. -/
theorem rhs_col (i : S512x512.Idx) (q : dot_S512x4096_S4096x512_S512x512_1_0_0_1_n_n.contr.Idx) :
    (dot_S512x4096_S4096x512_S512x512_1_0_0_1_n_n.rhsIdx i q 1).val = (i 1).val := by
  unfold DotDims.rhsIdx
  rw [dif_neg (show ¬(1 : Fin S4096x512.rank) ∈ dot_S512x4096_S4096x512_S512x512_1_0_0_1_n_n.rhsBatch by decide),
    dif_pos (show (1 : Fin S4096x512.rank) ∈ dot_S512x4096_S4096x512_S512x512_1_0_0_1_n_n.rhsNonContracting by decide)]
  rfl

/-! ## The body's stored value at an entry -/

/-- Entry `(p, o)` of what the body stores is the inner product of row `p` of the first block with column `o` of
    the second, over all 4096 inner positions. -/
theorem payload_apply (a : Vec Ideal S512x4096 .f32) (b : Vec Ideal S4096x512 .f32) (p : Fin 512) (o : Fin 512) :
    k0_pay1 (F := Ideal) a b (ix2 p o) = ∑ k : Fin 4096, a (ix2 p k) * b (ix2 k o) := by
  unfold k0_pay1
  exact Cert.LibPlainMatmul.matmul_zero_apply dot_S512x4096_S4096x512_S512x512_1_0_0_1_n_n none rfl rfl
    lhs_row lhs_col rhs_row rhs_col (truncf (F := Ideal) .bf16 a bitsLt_bf16_f32) (truncf (F := Ideal) .bf16 b bitsLt_bf16_f32) p o

end Cert.KernelIdeal.BlockValue

end
-- ==== Proof.ProductArray.lean ====
/-
  From the blocks the grid writes to the whole result array.

  The grid has 8 × 16 points. The point whose output block index is `(mb, nb)` stages rows `512·mb … 512·mb + 511`
  of `x` (all 4096 columns) and columns `512·nb … 512·nb + 511` of `h` (all 4096 rows), and writes back the
  512 × 512 block of the result at block index `(mb, nb)`. Entry `(p, o)` of that block is the inner product of row
  `p` of the staged rows with column `o` of the staged columns, that is, of row `512·mb + p` of `x` with column
  `512·nb + o` of `h`: the entry of `x · h` at the array index the block entry lands on. The 16 × 8 output blocks
  tile the 8192 × 4096 result, every block index is visited, so the array ends holding `x · h` everywhere.
-/
import proofs.«156654_j4904852652181_1_alg».proof.Proof.Gen.KernelIdeal.Value
import proofs.«156654_j4904852652181_1_alg».proof.Proof.BlockProduct
import proofs.«156654_j4904852652181_1_alg».proof.Proof.ProductSpec

set_option maxRecDepth 16384

noncomputable section

open scoped BigOperators

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's loads and its store start at the origin of their blocks. -/
theorem origin : (![0, 0] : Fin 2 → Nat) = fun _ => 0 := funext fun a => by fin_cases a <;> rfl

/-- How the three windows move over the grid, decided point by point: `x`'s window follows the output's row block
    and stays at column block 0; `h`'s window stays at row block 0 and follows the output's column block; the
    output's block indices stay inside the 16 × 8 blocks of the result. -/
theorem block_indices : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 15
    ∧ win0_2.index t (1 : Fin 2) ≤ 7 :=
  (by decide +kernel : ∀ t : Fin grid0.N, _)

/-- Every one of the 16 × 8 output blocks is some grid point's. -/
theorem every_block_visited : ∀ (q0 : Fin 16) (q1 : Fin 8), ∃ t : Fin cfg0.N, win0_2.index t = ![q0.val, q1.val] :=
  (by decide +kernel : ∀ (q0 : Fin 16) (q1 : Fin 8), ∃ t : Fin grid0.N, win0_2.index t = ![q0.val, q1.val])

/-- What point `t` writes back is block `t` of the product of the two argument arrays. -/
theorem flushed_is_block (c : Dev nD) (t : Fin cfg0.N) :
    (dats m 0 c).flushed 2 t
      = ((cfg0.win 2).blk t).view.read (Elt Ideal) (Cert.MatProduct.product (V m c main_arg0) (V m c main_arg1)) := by
  rw [Value.flushed2]
  unfold out0_2
  rw [View.canon_unit_zero origin]
  simp only [View.ld_unit_zero (S := S512x4096) origin, View.ld_unit_zero (S := S4096x512) origin]
  obtain ⟨e0, e1, e2, e3, -, -⟩ := block_indices t
  funext j
  obtain ⟨p, o, rfl⟩ : ∃ (p : Fin 512) (o : Fin 512), j = ix2 p o := ⟨j 0, j 1, eq_ix2 j⟩
  show k0_pay1 (F := Ideal) (iblk m c 0 t) (iblk m c 1 t) (ix2 p o)
    = Cert.MatProduct.product (V m c main_arg0) (V m c main_arg1) (((cfg0.win 2).blk t).view.emb (ix2 p o))
  refine (BlockValue.payload_apply (iblk m c 0 t) (iblk m c 1 t) p o).trans ?_
  unfold Cert.MatProduct.product
  refine Finset.sum_congr rfl fun k _ => ?_
  -- row `p` of the staged rows of `x`, at column `k`, is `x` at the output entry's row and column `k`
  have hx : ((cfg0.win 0).blk t).view.emb (ix2 p k) = ix2 ((((cfg0.win 2).blk t).view.emb (ix2 p o)) 0) k := by
    funext a; apply Fin.ext
    match a with
    | ⟨0, _⟩ => show win0_0.index t (0 : Fin 2) * 512 + 1 * p.val = win0_2.index t (0 : Fin 2) * 512 + 1 * p.val; omega
    | ⟨1, _⟩ => show win0_0.index t (1 : Fin 2) * 4096 + 1 * k.val = k.val; omega
  -- column `o` of the staged columns of `h`, at row `k`, is `h` at row `k` and the output entry's column
  have hh : ((cfg0.win 1).blk t).view.emb (ix2 k o) = ix2 k ((((cfg0.win 2).blk t).view.emb (ix2 p o)) 1) := by
    funext a; apply Fin.ext
    match a with
    | ⟨0, _⟩ => show win0_1.index t (0 : Fin 2) * 4096 + 1 * k.val = k.val; omega
    | ⟨1, _⟩ => show win0_1.index t (1 : Fin 2) * 512 + 1 * o.val = win0_2.index t (1 : Fin 2) * 512 + 1 * o.val; omega
  exact congrArg₂ (fun (u v : EReal) => u * v) (congrArg (V m c main_arg0) hx) (congrArg (V m c main_arg1) hh)

/-- An index of the result is in point `t`'s block exactly when each coordinate is in the block's range on its axis. -/
theorem mem_block (t : Fin cfg0.N) (i : S8192x4096.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v0).slice (win0_2.rect t)).set ↔ _
  rw [View.set_slice_whole, Rect.mem_set_unit]
  exact Iff.rfl

/-- Every index of the result lies in the block of the point whose block index is `(row / 512, column / 512)`. -/
theorem blocks_cover (i : S8192x4096.Idx) : ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := every_block_visited ⟨(i 0).val / 512, by omega⟩ ⟨(i 1).val / 512, by omega⟩
  have q0 : win0_2.index t (0 : Fin 2) = (i 0).val / 512 := congrFun ht 0
  have q1 : win0_2.index t (1 : Fin 2) = (i 1).val / 512 := congrFun ht 1
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-- After the last grid point the result array holds the product of the two argument arrays. -/
theorem final_array (c : Dev nD) :
    (dats m 0 c).arrAt 2 cfg0.N = Cert.MatProduct.product (m ((c : Thread nD τ).loc main_arg0)) (m ((c : Thread nD τ).loc main_arg1)) :=
  (dats m 0 c).arrAt_eq_of_cover 2 _ (fun t _ => flushed_is_block m c t) blocks_cover

/-- The kernel's run: every weakly fair execution ends with the result array at `x · h` and the arguments as launched. -/
theorem run : θ_run defs (onTc (τ := τ) (main (F := Ideal))) ⟨m, fun _ => 0, ρ⟩ fun r => ∀ c : Dev nD,
      r.2.mem ((c : Thread nD τ).loc main_v0) = Cert.MatProduct.product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_array m c), (h c).2⟩) (Value.run_blocks m ρ)

end Cert.KernelIdeal.ArrayValue

end
-- ==== Proof.lean ====
/-
  A blocked matrix product against one whole matrix product.

  Both programs compute `x · h` for `x` of 8192 rows and 4096 columns and a square `h` of 4096 rows and columns,
  over the extended reals: entry `(r, c)` is `∑ k, x (r, k) · h (k, c)` over the 4096 inner positions
  (Proof/ProductSpec.lean).

  The reference is one contraction of the two whole arrays (Proof/ReferenceProduct.lean). The kernel cuts the result
  into 16 × 8 blocks of 512 × 512 entries, one per grid point; for a block it stages 512 whole rows of `x` and 512
  whole columns of `h`, narrows them to a shorter float format — the identity at the ideal values — and multiplies
  them into a zero accumulator, so each block entry is already the full inner product over all 4096 positions
  (Proof/BlockProduct.lean); the blocks tile the result and every block is written once (Proof/ProductArray.lean).
  The two sums have the same terms, so the equality needs no law beyond reading both sides at an index, and the
  finiteness of the inputs is never used. The idealization rewrote no operation, so the fourth conjunct is `True`.
-/
import proofs.«156654_j4904852652181_1_alg».proof.Defs
import proofs.«156654_j4904852652181_1_alg».proof.Proof.Gen.Kernel
import proofs.«156654_j4904852652181_1_alg».proof.Proof.Gen.Kernel.Skeleton
import proofs.«156654_j4904852652181_1_alg».proof.Proof.Gen.Kernel.Launch
import proofs.«156654_j4904852652181_1_alg».proof.Proof.Gen.Kernel.Points
import proofs.«156654_j4904852652181_1_alg».proof.Proof.Gen.Kernel.Frame
import proofs.«156654_j4904852652181_1_alg».proof.Proof.Gen.KernelIdeal
import proofs.«156654_j4904852652181_1_alg».proof.Proof.Gen.KernelIdeal.Skeleton
import proofs.«156654_j4904852652181_1_alg».proof.Proof.Gen.KernelIdeal.Launch
import proofs.«156654_j4904852652181_1_alg».proof.Proof.Gen.KernelIdeal.Points
import proofs.«156654_j4904852652181_1_alg».proof.Proof.Gen.KernelIdeal.Frame
import proofs.«156654_j4904852652181_1_alg».proof.Proof.Gen.ReferenceIdeal
import proofs.«156654_j4904852652181_1_alg».proof.Proof.Gen.Pre_finite_inputs
import proofs.«156654_j4904852652181_1_alg».proof.Proof.Gen.KernelIdeal.Value
import proofs.«156654_j4904852652181_1_alg».proof.Proof.Gen.ReferenceIdeal.Run
import proofs.«156654_j4904852652181_1_alg».proof.Proof.Gen.ReferenceIdeal.Read
import proofs.«156654_j4904852652181_1_alg».proof.Proof.ProductSpec
import proofs.«156654_j4904852652181_1_alg».proof.Proof.ReferenceProduct
import proofs.«156654_j4904852652181_1_alg».proof.Proof.BlockProduct
import proofs.«156654_j4904852652181_1_alg».proof.Proof.ProductArray
import Idealize.ShloMosaic.Adequacy
import Idealize.ShloMosaic.Init

noncomputable section

namespace Cert.Proof

open Idealize.ShloMosaic Idealize.ShloMosaic.TcCoe Idealize.SL.Sem

/-- The kernel as printed runs to the end and leaves its arguments as launched. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference's run, with its result forgotten, is its frame. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array ends at `x · h` (the blocks assembled) and the reference's
    at its one contraction of the same two arrays, which is `x · h` entry by entry. -/
theorem algebraic : Cert.algebraic_KernelIdeal_ReferenceIdeal := by
  intro m ρ m' ρ' _ hagree
  refine ⟨fun c => Cert.MatProduct.product (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.reference_is_product _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
